-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 6
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S400x10000, .f32⟩
  | .local _ .vmem, ⟨4, _⟩ => ⟨S400x10000, .f32⟩
  | .local _ .vmem, ⟨5, _⟩ => ⟨S400x128, .f32⟩
  | .local _ .vmem, ⟨6, _⟩ => ⟨S400x128, .f32⟩
  | .local _ .vmem, ⟨7, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  inb_S400x128_S400x128_0_0 : ∀ a, (![0, 0] : Fin 2 → Nat) a + S400x128.size a ≤ S400x128.size a
  h_S400x128 : 0 < S400x128.numel
  dot_S10000x128_S128x128_S10000x128_1_1_0_0_n_n_wf : DotDims.WF S10000x128 S128x128 S10000x128 [1] [1] [0] [0] [] []
  dot_S400x10000_S10000x128_S400x128_1_0_0_1_n_n_wf : DotDims.WF S400x10000 S10000x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x10000.size a ≤ S10000x10000.size a
  hwx0_3 : ∀ i : grid0.Coords, EltTy.bits .f32 = 32 ∨ (Rect.block (s := S10000x10000) S400x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S400x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S_, .f32⟩
  | .hbm, ⟨11, _⟩ => ⟨S10000x128, .f32⟩
  | .hbm, ⟨12, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Spec.lean ====
/-
  The graph-convolution layer as ONE function of its four arrays, over the extended reals.

  The linear layer, with the weight indexed output-first:   hidden[k, j] = Σ_l x[k, l] · W[j, l] + b[j].
  The aggregation and the activation:                       layer[r, j]  = max (Σ_k adj[r, k] · hidden[k, j]) 0.

  Both programs compute exactly these sums, term for term: the contraction of `x` with `W` runs over the second axis of
  each, the contraction of `adj` with the hidden features over the node axis, and neither side regroups or
  reorders a sum. So nothing of the extended reals' arithmetic is used beyond reading each operation at an index.
-/
import Idealize.ShloMosaic.PureOps.Ideal
import Idealize.ShloMosaic.Lib.ValueIdx

noncomputable section

open scoped BigOperators

namespace Cert.Gcn

open Idealize.ShloMosaic Idealize.ShloMosaic.ValueIdx

/-- Entry `(k, j)` of the linear layer `x · Wᵀ + b`: node `k`'s features against output row `j` of the weight, plus
    that output's bias. -/
def hidden (x : FVec Ideal ⟨2, ![10000, 128]⟩ .f32) (W : FVec Ideal ⟨2, ![128, 128]⟩ .f32) (b : FVec Ideal ⟨1, ![128]⟩ .f32)
    (k : Fin 10000) (j : Fin 128) : EReal :=
  (∑ l : Fin 128, x (ix2 k l) * W (ix2 j l)) + b (ix1 j)

/-- The layer's output: row `r` of the adjacency against column `j` of the hidden features, clamped below at zero. -/
def layer (x : FVec Ideal ⟨2, ![10000, 128]⟩ .f32) (adj : FVec Ideal ⟨2, ![10000, 10000]⟩ .f32)
    (W : FVec Ideal ⟨2, ![128, 128]⟩ .f32) (b : FVec Ideal ⟨1, ![128]⟩ .f32) : FVec Ideal ⟨2, ![10000, 128]⟩ .f32 :=
  fun i => max (∑ k : Fin 10000, adj (ix2 (i 0) k) * hidden x W b k (i 1)) 0

end Cert.Gcn

end
-- ==== Proof.RefValue.lean ====
/-
  The reference computes the layer. Read one operation at a time: the transposed weight at `(l, j)` is `W[j, l]`, so the
  first product's entry `(k, j)` is `Σ_l x[k, l] · W[j, l]`; the bias, broadcast along the node axis, adds `b[j]`; the second
  product's entry `(r, j)` is `Σ_k adj[r, k] · hidden[k, j]`; the activation is the maximum with the zero splat.
-/
import proofs.«106963_g5643587026968_cont_9to1_m_404_5_alg».proof.Proof.Gen.ReferenceIdeal.Read
import proofs.«106963_g5643587026968_cont_9to1_m_404_5_alg».proof.Proof.Spec

noncomputable section

open scoped BigOperators

namespace Cert.Gcn.Reference

open Idealize.ShloMosaic Idealize.ShloMosaic.ValueIdx Cert.ReferenceIdeal Cert.ReferenceIdeal.Read Cert.Gcn

/-- The reference's linear stage at `(p, q)` is the specification's hidden entry. -/
theorem linear_at (x0 : FVec Ideal S10000x128 .f32) (x2 : FVec Ideal S128x128 .f32) (x3 : FVec Ideal S128 .f32)
    (p : Fin 10000) (q : Fin 128) :
    val_main_v4 (F := Ideal) x0 x2 x3 (ix2 p q) = hidden x0 x2 x3 p q := by
  have e1 : ∀ l : Fin 128, lidx_main_v1 (ix2 p q) l = ix2 p l := fun l =>
    funext fun a => match a with | ⟨0, _⟩ => rfl | ⟨1, _⟩ => rfl
  have e2 : ∀ l : Fin 128, idx_main_v0 (ridx_main_v1 (ix2 p q) l) = ix2 q l := fun l =>
    funext fun a => match a with | ⟨0, _⟩ => rfl | ⟨1, _⟩ => rfl
  have e3 : idx_main_v2 (idx_main_v3 (ix2 p q)) = ix1 q :=
    funext fun a => match a with | ⟨0, _⟩ => rfl
  rw [val_main_v4_apply, val_main_v1_apply, val_main_v3_apply, val_main_v2_apply]
  simp only [val_main_v0_apply, e1, e2, e3]
  rfl

/-- The reference's result is the layer. -/
theorem result_eq (x0 : FVec Ideal S10000x128 .f32) (x1 : FVec Ideal S10000x10000 .f32) (x2 : FVec Ideal S128x128 .f32)
    (x3 : FVec Ideal S128 .f32) :
    val_main_v6 (F := Ideal) x0 x1 x2 x3 = layer x0 x1 x2 x3 := by
  funext i
  obtain ⟨r, j, rfl⟩ : ∃ (r : Fin 10000) (j : Fin 128), i = ix2 r j := ⟨i 0, i 1, eq_ix2 i⟩
  have el : ∀ k : Fin 10000, lidx_main_v5 (ix2 r j) k = ix2 r k := fun k =>
    funext fun a => match a with | ⟨0, _⟩ => rfl | ⟨1, _⟩ => rfl
  have er : ∀ k : Fin 10000, ridx_main_v5 (ix2 r j) k = ix2 k j := fun k =>
    funext fun a => match a with | ⟨0, _⟩ => rfl | ⟨1, _⟩ => rfl
  rw [val_main_v6_apply, val_main_v5_apply, val_main_call0_v0_apply, val_main_call0_cst_apply]
  simp only [el, er, linear_at]
  show max _ (Ideal.ofBits .f32 0x00000000#32) = _
  rw [Ideal.ofBits_zero_f32]
  rfl

end Cert.Gcn.Reference

end
-- ==== Proof.KernelPieces.lean ====
/-
  What one run of the kernel body leaves behind, as values of what it loaded — for any float instance.

  The body loads and stores whole buffers only, so each buffer it writes ends at the one value stored into it:
  at the first grid point the scratch ends at the linear layer of the three resident blocks, and the output block at the
  aggregation of the adjacency block with THAT value (the scratch is read back after it is written); at every later
  point the scratch is left alone and the output block is the aggregation of the adjacency block with what the scratch
  already held.
-/
import proofs.«106963_g5643587026968_cont_9to1_m_404_5_alg».proof.Proof.Gen.KernelIdeal.Frame
import Idealize.ShloMosaic.Lib.Pipeline.Value

set_option maxRecDepth 16384

noncomputable section

namespace Cert.Gcn.Kernel

open Idealize.ShloMosaic Idealize.ShloMosaic.TcCoe Idealize.ShloMosaic.Tactic Idealize.SL.Sem
open Cert.KernelIdeal Cert.KernelIdeal.Gen

variable {F : FTy → Type} [FloatOps F]

/-- Every access of the body starts at the origin of its buffer. -/
theorem origin2 : (![0, 0] : Fin 2 → Nat) = fun _ => 0 := funext fun a => by fin_cases a <;> rfl

/-- First point: the scratch ends at the linear layer of the resident blocks. -/
theorem scratch_first (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S400x10000 .f32) (harg4 : arg4.IsWhole) (arg5 : Memref sig .tc .vmem S400x128 .f32) (harg5 : arg5.IsWhole) (arg6 : Memref sig .tc .vmem S10000x128 .bf16) (harg6 : arg6.IsWhole) (hc0 : cond0_0 i) (x0 : Vec F S10000x128 .f32) (x1 : Vec F S128x128 .f32) (x2 : Vec F S1x128 .f32) (x3 : Vec F S400x10000 .f32) :
    sout0_A_0 c i arg1 harg1 arg2 harg2 arg3 harg3 arg4 harg4 arg5 harg5 arg6 harg6 hc0 x0 x1 x2 x3 = k0_pay1 x0 x1 x2 := by
  unfold sout0_A_0
  rw [View.read_writes_eq_canon _ _ _ (scover0_A_0 c i arg1 harg1 arg2 harg2 arg3 harg3 arg4 harg4 arg5 harg5 arg6 harg6 hc0 x0 x1 x2 x3)]
  unfold kernelRun0_A
  dsimp only
  sl_unfold_words
  rw [View.canon_unit_zero (S := S10000x128) origin2]
  simp only [View.readAt_eq_ld, harg1.read_unread, harg2.read_unread, harg3.read_unread,
    View.ld_unit_zero (S := S10000x128) origin2, View.ld_unit_zero (S := S128x128) origin2, View.ld_unit_zero (S := S1x128) origin2]

/-- First point: the output block is the aggregation of the adjacency block with the scratch just written. -/
theorem block_first (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S400x10000 .f32) (harg4 : arg4.IsWhole) (arg5 : Memref sig .tc .vmem S400x128 .f32) (harg5 : arg5.IsWhole) (arg6 : Memref sig .tc .vmem S10000x128 .bf16) (harg6 : arg6.IsWhole) (hc0 : cond0_0 i) (x0 : Vec F S10000x128 .f32) (x1 : Vec F S128x128 .f32) (x2 : Vec F S1x128 .f32) (x3 : Vec F S400x10000 .f32) :
    out0_A_4 c i arg1 harg1 arg2 harg2 arg3 harg3 arg4 harg4 arg5 harg5 arg6 harg6 hc0 x0 x1 x2 x3 = k0_pay2 x3 (k0_pay1 x0 x1 x2) := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_words
  rw [View.canon_unit_zero (S := S400x128) origin2, View.readCov_unit_zero (S := S10000x128) _ origin2]
  simp only [View.readAt_eq_ld, harg1.read_unread, harg2.read_unread, harg3.read_unread, harg4.read_unread,
    View.ld_unit_zero (S := S10000x128) origin2, View.ld_unit_zero (S := S128x128) origin2, View.ld_unit_zero (S := S1x128) origin2,
    View.ld_unit_zero (S := S400x10000) origin2]

/-- Later points: the output block is the aggregation of the adjacency block with what the scratch held. -/
theorem block_later (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S400x10000 .f32) (harg4 : arg4.IsWhole) (arg5 : Memref sig .tc .vmem S400x128 .f32) (harg5 : arg5.IsWhole) (arg6 : Memref sig .tc .vmem S10000x128 .bf16) (harg6 : arg6.IsWhole) (hc0 : ¬cond0_0 i) (x0 : Vec F S10000x128 .f32) (x1 : Vec F S128x128 .f32) (x2 : Vec F S1x128 .f32) (x3 : Vec F S400x10000 .f32) (xs0 : Vec F S10000x128 .bf16) :
    out0_B_4 c i arg1 harg1 arg2 harg2 arg3 harg3 arg4 harg4 arg5 harg5 arg6 harg6 hc0 x0 x1 x2 x3 xs0 = k0_pay2 x3 xs0 := by
  unfold out0_B_4
  rw [View.read_writes_eq_canon _ _ _ (cover0_B_4 c i arg1 harg1 arg2 harg2 arg3 harg3 arg4 harg4 arg5 harg5 arg6 harg6 hc0 x0 x1 x2 x3 xs0)]
  unfold kernelRun0_B
  dsimp only
  sl_unfold_words
  rw [View.canon_unit_zero (S := S400x128) origin2]
  simp only [View.readAt_eq_ld, harg4.read_unread, harg6.read_unread,
    View.ld_unit_zero (S := S400x10000) origin2, View.ld_unit_zero (S := S10000x128) origin2]

end Cert.Gcn.Kernel

end
-- ==== Proof.KernelPayload.lean ====
/-
  The kernel body's two stored values, read at an index, at the extended reals.

  The first grid point fills the scratch with the linear layer: the matrix unit contracts the SECOND axis of `x` against the
  SECOND axis of `W` (no transpose is materialised), into a zero accumulator, so entry `(p, q)` is `Σ_l x[p, l] · W[q, l]`; the
  bias is a `1 × 128` row broadcast down the node axis, adding `b[0, q]`; the narrowing of the sum to half precision is the
  identity on the extended reals. Every grid point then multiplies its `400 × 10000` block of the adjacency (narrowed:
  again the identity) with the scratch, `Σ_k a[p, k] · h[k, q]`, and takes the maximum with zero.
-/
import proofs.«106963_g5643587026968_cont_9to1_m_404_5_alg».proof.Proof.Gen.KernelIdeal.Skeleton
import proofs.«106963_g5643587026968_cont_9to1_m_404_5_alg».proof.Proof.Spec
import Idealize.ShloMosaic.Lib.Pipeline.Value
import Idealize.ShloMosaic.Lib.ValueIdx
import Idealize.ShloMosaic.PureOps.Ideal.Laws

noncomputable section

open scoped BigOperators

namespace Cert.Gcn.Kernel

open Idealize.ShloMosaic Idealize.ShloMosaic.ValueIdx Cert.KernelIdeal Cert.KernelIdeal.Gen Cert.Gcn

/-! ## The linear layer's product: both operands contracted along their second axis -/

theorem lhs_lin_0 (i : S10000x128.Idx) (q : dot_S10000x128_S128x128_S10000x128_1_1_0_0_n_n.contr.Idx) :
    (dot_S10000x128_S128x128_S10000x128_1_1_0_0_n_n.lhsIdx i q 0).val = (i 0).val := by
  unfold DotDims.lhsIdx
  rw [dif_neg (show ¬(0 : Fin S10000x128.rank) ∈ dot_S10000x128_S128x128_S10000x128_1_1_0_0_n_n.lhsBatch by decide), dif_pos (show (0 : Fin S10000x128.rank) ∈ dot_S10000x128_S128x128_S10000x128_1_1_0_0_n_n.lhsNonContracting by decide)]
  rfl
theorem lhs_lin_1 (i : S10000x128.Idx) (q : dot_S10000x128_S128x128_S10000x128_1_1_0_0_n_n.contr.Idx) :
    (dot_S10000x128_S128x128_S10000x128_1_1_0_0_n_n.lhsIdx i q 1).val = (q ⟨0, by decide⟩).val :=
  dot_S10000x128_S128x128_S10000x128_1_1_0_0_n_n.lhsIdx_val_of_single rfl i q
theorem rhs_lin_0 (i : S10000x128.Idx) (q : dot_S10000x128_S128x128_S10000x128_1_1_0_0_n_n.contr.Idx) :
    (dot_S10000x128_S128x128_S10000x128_1_1_0_0_n_n.rhsIdx i q 0).val = (i 1).val := by
  unfold DotDims.rhsIdx
  rw [dif_neg (show ¬(0 : Fin S128x128.rank) ∈ dot_S10000x128_S128x128_S10000x128_1_1_0_0_n_n.rhsBatch by decide), dif_pos (show (0 : Fin S128x128.rank) ∈ dot_S10000x128_S128x128_S10000x128_1_1_0_0_n_n.rhsNonContracting by decide)]
  rfl
theorem rhs_lin_1 (i : S10000x128.Idx) (q : dot_S10000x128_S128x128_S10000x128_1_1_0_0_n_n.contr.Idx) :
    (dot_S10000x128_S128x128_S10000x128_1_1_0_0_n_n.rhsIdx i q 1).val = (q ⟨0, by decide⟩).val :=
  dot_S10000x128_S128x128_S10000x128_1_1_0_0_n_n.rhsIdx_val_of_single rfl i q

/-- `x · Wᵀ` into a zero accumulator, at `(p, q)`: the features of node `p` against row `q` of the weight. -/
theorem linear_product_at (a : FVec Ideal S10000x128 .f32) (w : FVec Ideal S128x128 .f32) (p : Fin 10000) (q : Fin 128) :
    matmul (F := Ideal) dot_S10000x128_S128x128_S10000x128_1_1_0_0_n_n none a w (constant (F := Ideal) S10000x128 .f32 0x00000000#32) (ix2 p q)
      = ∑ l : Fin 128, a (ix2 p l) * w (ix2 q l) := by
  simp only [matmul]
  rw [Ideal.matmul_constant_zero_apply, ← Equiv.sum_comp (contrEquiv1 dot_S10000x128_S128x128_S10000x128_1_1_0_0_n_n 128 rfl rfl).symm]
  refine Finset.sum_congr rfl fun k _ => ?_
  have hk := contrEquiv1_symm_val dot_S10000x128_S128x128_S10000x128_1_1_0_0_n_n 128 rfl rfl k
  have el : dot_S10000x128_S128x128_S10000x128_1_1_0_0_n_n.lhsIdx (ix2 p q) ((contrEquiv1 dot_S10000x128_S128x128_S10000x128_1_1_0_0_n_n 128 rfl rfl).symm k) = ix2 p k := funext fun a => Fin.ext (by
    match a with
    | ⟨0, _⟩ => exact lhs_lin_0 _ _
    | ⟨1, _⟩ => exact (lhs_lin_1 _ _).trans hk)
  have er : dot_S10000x128_S128x128_S10000x128_1_1_0_0_n_n.rhsIdx (ix2 p q) ((contrEquiv1 dot_S10000x128_S128x128_S10000x128_1_1_0_0_n_n 128 rfl rfl).symm k) = ix2 q k := funext fun a => Fin.ext (by
    match a with
    | ⟨0, _⟩ => exact rhs_lin_0 _ _
    | ⟨1, _⟩ => exact (rhs_lin_1 _ _).trans hk)
  rw [el, er]

/-! ## The aggregation's product: a block of adjacency rows against the hidden features -/

theorem lhs_agg_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhs_agg_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhs_agg_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhs_agg_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- A block of adjacency rows against the hidden features, into a zero accumulator, at `(p, q)`. -/
theorem aggregate_product_at (a : FVec Ideal S400x10000 .bf16) (h : FVec Ideal S10000x128 .bf16) (p : Fin 400) (q : Fin 128) :
    matmul (F := Ideal) dot_S400x10000_S10000x128_S400x128_1_0_0_1_n_n none a h (constant (F := Ideal) S400x128 .f32 0x00000000#32) (ix2 p q)
      = ∑ k : Fin 10000, a (ix2 p k) * h (ix2 k q) := by
  simp only [matmul]
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p q) ((contrEquiv1 dot_S400x10000_S10000x128_S400x128_1_0_0_1_n_n 10000 rfl rfl).symm k) = ix2 p k := funext fun a => Fin.ext (by
    match a with
    | ⟨0, _⟩ => exact lhs_agg_0 _ _
    | ⟨1, _⟩ => exact (lhs_agg_1 _ _).trans hk)
  have er : dot_S400x10000_S10000x128_S400x128_1_0_0_1_n_n.rhsIdx (ix2 p q) ((contrEquiv1 dot_S400x10000_S10000x128_S400x128_1_0_0_1_n_n 10000 rfl rfl).symm k) = ix2 k q := funext fun a => Fin.ext (by
    match a with
    | ⟨0, _⟩ => exact (rhs_agg_0 _ _).trans hk
    | ⟨1, _⟩ => exact rhs_agg_1 _ _)
  rw [el, er]

/-! ## The two stored values -/

/-- The bias row broadcast down the node axis, at `(p, q)`, is the row's entry `q`. -/
theorem bias_at (v : FVec Ideal S1x128 .f32) (p : Fin 10000) (q : Fin 128) :
    broadcastTo S10000x128 (shapeCast S1x128 v Facts₀.shapeCasts_S1x128_S1x128) Facts₀.broadcasts_S1x128_S10000x128 (ix2 p q)
      = v (ix2 (0 : Fin 1) q) := by
  rw [shapeCast_self]
  exact broadcastTo_apply v Facts₀.broadcasts_S1x128_S10000x128 (ix2 p q) (ix2 (0 : Fin 1) q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-- What the first grid point stores in the scratch, at `(p, q)`: the linear layer's entry over the loaded blocks. -/
theorem scratch_value_at (v10 : Vec Ideal S10000x128 .f32) (v11 : Vec Ideal S128x128 .f32) (v13 : Vec Ideal S1x128 .f32)
    (p : Fin 10000) (q : Fin 128) :
    k0_pay1 (F := Ideal) v10 v11 v13 (ix2 p q) = (∑ l : Fin 128, v10 (ix2 p l) * v11 (ix2 q l)) + v13 (ix2 (0 : Fin 1) q) := by
  unfold k0_pay1
  rw [shapeCast_self]
  show matmul (F := Ideal) dot_S10000x128_S128x128_S10000x128_1_1_0_0_n_n none v10 v11 (constant (F := Ideal) S10000x128 .f32 0x00000000#32) (ix2 p q)
      + broadcastTo S10000x128 (shapeCast S1x128 v13 Facts₀.shapeCasts_S1x128_S1x128) Facts₀.broadcasts_S1x128_S10000x128 (ix2 p q) = _
  rw [linear_product_at, bias_at]

/-- What every grid point stores in its output block, at `(p, q)`, over its adjacency block and the scratch. -/
theorem block_value_at (v3 : Vec Ideal S400x10000 .f32) (v5 : Vec Ideal S10000x128 .bf16) (p : Fin 400) (q : Fin 128) :
    k0_pay2 (F := Ideal) v3 v5 (ix2 p q) = max (∑ k : Fin 10000, v3 (ix2 p k) * v5 (ix2 k q)) 0 := by
  unfold k0_pay2
  show max (matmul (F := Ideal) dot_S400x10000_S10000x128_S400x128_1_0_0_1_n_n none (v3 : FVec Ideal S400x10000 .bf16) v5 (constant (F := Ideal) S400x128 .f32 0x00000000#32) (ix2 p q))
      (Ideal.ofBits .f32 0x00000000#32) = _
  rw [aggregate_product_at, Ideal.ofBits_zero_f32]

end Cert.Gcn.Kernel

end
-- ==== Proof.KernelBlocks.lean ====
/-
  From what each grid point writes to the whole output array, at the extended reals.

  The grid has 25 points. The three small operands are resident: each one's block is its whole array at every point.
  Point `t` reads rows `400·t … 400·t + 399` of the adjacency and writes the same rows of the output. The scratch is filled
  at point 0 with the linear layer of the whole arrays and no later point stores into it, so after EVERY point it holds
  that same value (induction over the points). Hence every point writes its rows of one and the same function of the
  arrays — the aggregation of the adjacency with the linear layer, clamped at zero — and the 25 row blocks tile the
  output, so the output ends as that function. Last, the row the kernel adds as the bias is the host's reshape of the
  bias vector to `1 × 128`, whose entry `(0, q)` is the vector's entry `q`.
-/
import proofs.«106963_g5643587026968_cont_9to1_m_404_5_alg».proof.Proof.Gen.KernelIdeal.Value
import proofs.«106963_g5643587026968_cont_9to1_m_404_5_alg».proof.Proof.KernelPieces
import proofs.«106963_g5643587026968_cont_9to1_m_404_5_alg».proof.Proof.KernelPayload
import proofs.«106963_g5643587026968_cont_9to1_m_404_5_alg».proof.Proof.Spec

set_option maxRecDepth 16384

noncomputable section

open scoped BigOperators

namespace Cert.Gcn.Kernel

open Idealize.ShloMosaic Idealize.ShloMosaic.TcCoe Idealize.SL.Sem Idealize.ShloMosaic.ValueIdx
open Idealize.ShloMosaic.Pipeline (Dat)
open Cert.KernelIdeal Cert.KernelIdeal.Gen Cert.Gcn

variable (m : (ℓ : Loc nD τ sig) → Buf (Elt Ideal) ℓ) (ρ : Dev nD → PrngReg)

/-! ## The index maps, decided over the 25 points -/

/-- The resident operands sit at block `(0, 0)`; the adjacency and the output move down one row block per point. -/
theorem index_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 25 := lt_of_lt_of_eq t.isLt (show cfg0.N = 25 from N_0)

/-! ## The blocks the body loads, as entries of the arrays -/

/-- The features' block is the whole array. -/
theorem features_block (c : Dev nD) (t : Fin cfg0.N) : (iblk m c 0 t : Vec Ideal S10000x128 .f32) = V m c main_arg0 := by
  funext y
  show V m c main_arg0 (((cfg0.win 0).blk t).view.emb y) = V m c main_arg0 y
  obtain ⟨e0, e1, -⟩ := index_facts t
  refine congrArg _ (funext fun a => Fin.ext ?_)
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- The weight's block is the whole array. -/
theorem weight_block (c : Dev nD) (t : Fin cfg0.N) : (iblk m c 1 t : Vec Ideal S128x128 .f32) = V m c main_arg2 := by
  funext y
  show V m c main_arg2 (((cfg0.win 1).blk t).view.emb y) = V m c main_arg2 y
  obtain ⟨-, -, e0, e1, -⟩ := index_facts t
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The bias row's block is the whole row. -/
theorem bias_block (c : Dev nD) (t : Fin cfg0.N) : (iblk m c 2 t : Vec Ideal S1x128 .f32) = V m c main_v0 := by
  funext y
  show V m c main_v0 (((cfg0.win 2).blk t).view.emb y) = V m c main_v0 y
  obtain ⟨-, -, -, -, e0, e1, -⟩ := index_facts t
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- Row `p` of the adjacency's block at point `t` is row `400·t + p` of the adjacency. -/
theorem adjacency_block_at (c : Dev nD) (t : Fin cfg0.N) (p : Fin 400) (k : Fin 10000) (h : 400 * t.val + p.val < 10000) :
    (iblk m c 3 t : Vec Ideal S400x10000 .f32) (ix2 p k) = V m c main_arg1 (ix2 (⟨400 * t.val + p.val, h⟩ : Fin 10000) k) := by
  show V m c main_arg1 (((cfg0.win 3).blk t).view.emb (ix2 p k)) = V m c main_arg1 _
  obtain ⟨-, -, -, -, -, -, e0, e1, -⟩ := index_facts t
  refine congrArg _ (funext fun a => Fin.ext ?_)
  match a with
  | ⟨0, _⟩ => show win0_3.index t (0 : Fin 2) * 400 + 1 * p.val = 400 * t.val + p.val; omega
  | ⟨1, _⟩ => show win0_3.index t (1 : Fin 2) * 10000 + 1 * k.val = k.val; omega

/-! ## The bias row the region finds -/

/-- The host reshapes the bias vector to a `1 × 128` row before the region: entry `(0, q)` is the vector's entry `q`. -/
theorem bias_row_at (c : Dev nD) (q : Fin 128) :
    (V m c main_v0 : Vec Ideal S1x128 .f32) (ix2 (0 : Fin 1) q) = m ((c : Thread nD τ).loc main_arg3) (ix1 q) := by
  have e : (V m c main_v0 : S1x128.Idx → EReal)
      = shapeCast S1x128 (m ((c : Thread nD τ).loc main_arg3)) Facts₀.shapeCasts_S128_S1x128 := by
    dsimp only [Gen.V, Gen.hostOps0]; after_results; rfl
  rw [e]
  exact shapeCast_apply _ Facts₀.shapeCasts_S128_S1x128 (ix2 (0 : Fin 1) q) (ix1 q) (by
    rw [Shape.rowMajor_val_one, Shape.rowMajor_val_two]; show q.val = 0 * 128 + q.val; omega)

/-! ## The scratch after every point -/

/-- The linear layer of the arrays as the region finds them: what point 0 stores in the scratch. -/
def hid (c : Dev nD) : Vec Ideal S10000x128 .bf16 :=
  k0_pay1 (F := Ideal) (V m c main_arg0) (V m c main_arg2) (V m c main_v0)

/-- Point 0 fills the scratch and no later point stores into it: after every point it holds the linear layer. -/
theorem scratch_after (c : Dev nD) : ∀ (n : ℕ) (hn : n < cfg0.N), (outsAt0 m c n hn).2 = hid m c
  | 0, hn => by
    rw [show outsAt0 m c 0 hn = _ from outsAt0_A m c ⟨0, hn⟩ (Nat.zero_mod 25)]
    dsimp only
    rw [scratch_first (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod 25)) (iblk m c 0 ⟨0, hn⟩) (iblk m c 1 ⟨0, hn⟩) (iblk m c 2 ⟨0, hn⟩) (iblk m c 3 ⟨0, hn⟩)]
    unfold hid
    rw [features_block, weight_block, bias_block]
  | n + 1, hn => by
    have h0 : ¬(n + 1) % 25 = 0 := by have := point_lt ⟨n + 1, hn⟩; simp only at this; omega
    rw [show outsAt0 m c (n + 1) hn = _ from outsAt0_B m c ⟨n + 1, hn⟩ h0]
    dsimp only
    unfold sout0_B_0
    exact scratch_after c n _

/-! ## What every point writes back: its rows of one function of the arrays -/

/-- The adjacency as the region finds it, at its literal type. -/
abbrev adjacency (c : Dev nD) : Vec Ideal S10000x10000 .f32 := V m c main_arg1

/-- The kernel's output as one function of the arrays the region finds: the adjacency against the linear layer,
    clamped below at zero. -/
def out (c : Dev nD) : Vec Ideal S10000x128 .f32 := fun i =>
  max (∑ k : Fin 10000, adjacency m c (ix2 (i 0) k) * hid m c (ix2 k (i 1))) 0

/-- Entry `(p, q)` of point `t`'s output block sits in row `400·t + p` of the output. -/
theorem output_block_emb (t : Fin cfg0.N) (p : Fin 400) (q : Fin 128) (h : 400 * t.val + p.val < 10000) :
    (((cfg0.win 4).blk t).view.emb (ix2 p q) : S10000x128.Idx) = ix2 (⟨400 * t.val + p.val, h⟩ : Fin 10000) q := by
  obtain ⟨-, -, -, -, -, -, -, -, e0, e1⟩ := index_facts t
  funext a; apply Fin.ext
  match a with
  | ⟨0, _⟩ => show win0_4.index t (0 : Fin 2) * 400 + 1 * p.val = 400 * t.val + p.val; omega
  | ⟨1, _⟩ => show win0_4.index t (1 : Fin 2) * 128 + 1 * q.val = q.val; omega

/-- A point's adjacency block aggregated with the linear layer is that point's rows of `out`. -/
theorem block_is_rows (c : Dev nD) (t : Fin cfg0.N) :
    k0_pay2 (F := Ideal) (iblk m c 3 t) (hid m c) = ((cfg0.win 4).blk t).view.read (Elt Ideal) (out m c) := by
  funext y
  obtain ⟨p, q, rfl⟩ : ∃ (p : Fin 400) (q : Fin 128), y = ix2 p q := ⟨y 0, y 1, eq_ix2 y⟩
  have hp : 400 * t.val + p.val < 10000 := by have := point_lt t; have := p.isLt; omega
  show _ = out m c (((cfg0.win 4).blk t).view.emb (ix2 p q))
  rw [output_block_emb t p q hp, block_value_at]
  unfold out
  refine congrArg (fun s : EReal => max s 0) (Finset.sum_congr rfl fun k _ => ?_)
  exact congrArg (· * hid m c (ix2 k q)) (adjacency_block_at m c t p k hp)

/-- WHAT POINT `t` WRITES BACK is its rows of `out`, at the first point and at every later one. -/
theorem flushed_eq (c : Dev nD) (t : Fin cfg0.N) :
    (dats m 0 c).flushed 4 t = ((cfg0.win 4).blk t).view.read (Elt Ideal) (out m c) := by
  by_cases h0 : t.val % 25 = 0
  · rw [Cert.KernelIdeal.Value.flushed4_A m c t h0,
      block_first (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t),
      features_block, weight_block, bias_block]
    exact block_is_rows m c t
  · rw [Cert.KernelIdeal.Value.flushed4_B m c t h0,
      block_later (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2,
      scratch_after]
    exact block_is_rows m c t

/-! ## The 25 row blocks tile the output -/

/-- An index of the output is in point `t`'s block iff each coordinate is in the block's range on its axis. -/
theorem mem_output_block (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v1).slice (win0_4.rect t)).set ↔ _
  rw [View.set_slice_whole, Rect.mem_set_unit]
  exact Iff.rfl

/-- Row `r` of the output is written by point `r / 400`. -/
theorem rows_tile (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  obtain ⟨t, ht⟩ : ∃ t : Fin cfg0.N, t.val = (i 0).val / 400 :=
    ⟨⟨(i 0).val / 400, lt_of_lt_of_eq (by omega) (show cfg0.N = 25 from N_0).symm⟩, rfl⟩
  refine ⟨t, flush0_4 t, ?_⟩
  rw [mem_output_block]
  obtain ⟨-, -, -, -, -, -, -, -, e0, e1⟩ := index_facts t
  intro a
  match a with
  | ⟨0, _⟩ => show win0_4.index t (0 : Fin 2) * 400 ≤ (i 0).val ∧ (i 0).val < win0_4.index t (0 : Fin 2) * 400 + 400; omega
  | ⟨1, _⟩ => show win0_4.index t (1 : Fin 2) * 128 ≤ (i 1).val ∧ (i 1).val < win0_4.index t (1 : Fin 2) * 128 + 128; omega

/-- THE OUTPUT ARRAY after the run is `out`. -/
theorem output_final (c : Dev nD) : (dats m 0 c).arrAt 4 cfg0.N = out m c :=
  (dats m 0 c).arrAt_eq_of_cover 4 (out m c) (fun t _ => flushed_eq m c t) rows_tile

/-! ## In terms of the arguments -/

/-- The scratch's entry `(k, q)` is the specification's hidden entry of the arguments as launched: no host operation before
    the region writes the features or the weight, and the bias row is the bias vector reshaped. -/
theorem hid_at (c : Dev nD) (k : Fin 10000) (q : Fin 128) :
    hid m c (ix2 k q) = hidden (m ((c : Thread nD τ).loc main_arg0)) (m ((c : Thread nD τ).loc main_arg2)) (m ((c : Thread nD τ).loc main_arg3)) k q := by
  unfold hid hidden
  rw [scratch_value_at, bias_row_at, V_main_arg0, V_main_arg2]

/-- `out` is the layer of the four argument arrays as launched (the adjacency, too, reaches the region unwritten). -/
theorem out_eq_layer (c : Dev nD) :
    out m c = layer (m ((c : Thread nD τ).loc main_arg0)) (m ((c : Thread nD τ).loc main_arg1)) (m ((c : Thread nD τ).loc main_arg2)) (m ((c : Thread nD τ).loc main_arg3)) := by
  funext i
  unfold out layer
  refine congrArg (fun s : EReal => max s 0) (Finset.sum_congr rfl fun k _ => ?_)
  exact congrArg₂ (· * ·) (congrFun (V_main_arg1 m c) (ix2 (i 0) k)) (hid_at m c k (i 1))

/-- Every weakly fair execution of the kernel's program terminates with the output at the layer of the arguments and
    the arguments unchanged. -/
theorem run : θ_run defs (onTc (τ := τ) (main (F := Ideal))) ⟨m, fun _ => 0, ρ⟩ fun r => ∀ c : Dev nD,
      r.2.mem ((c : Thread nD τ).loc main_v1) = layer (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((output_final m c).trans (out_eq_layer m c)), (h c).2⟩)
    (Cert.KernelIdeal.Value.run_blocks m ρ)

end Cert.Gcn.Kernel

end
-- ==== Proof.lean ====
/-
  A graph-convolution layer, `out = max (adj · (x · Wᵀ + b)) 0`, returned with the adjacency itself: the kernel against its
  reference, over the extended reals.

  The kernel is one pipelined call over 25 row blocks of the adjacency. Its first grid point computes the linear layer
  `x · Wᵀ + b` once into a scratch buffer that stays in place for the rest of the grid; every point multiplies its
  `400 × 10000` block of adjacency rows with that buffer and clamps at zero. The reference forms the transposed weight,
  the two products and the maximum on whole arrays. At the extended reals the kernel's narrowing of both operands of the
  big product to half precision is the identity, a matrix product into a zero accumulator is the plain sum of products,
  and both sides take the same sums in the same shape: entry `(r, j)` is `max (Σ_k adj[r, k] · (Σ_l x[k, l] · W[j, l] + b[j])) 0`
  on each side (Proof/Spec.lean). No law of arithmetic joins them, so the finiteness of the inputs is never used.

  Proof/RefValue.lean reads the reference's operations one at a time up to that function; Proof/KernelPayload.lean reads
  the kernel body's two stored values at an index; Proof/KernelPieces.lean says what one run of the body leaves in the
  scratch and in the output block; Proof/KernelBlocks.lean carries the scratch across the grid points and tiles the output
  with the 25 row blocks. The idealized kernel is the kernel's own text read at the extended reals (no rewrite was applied),
  so there is nothing to preserve.
-/
import proofs.«106963_g5643587026968_cont_9to1_m_404_5_alg».proof.Defs
import proofs.«106963_g5643587026968_cont_9to1_m_404_5_alg».proof.Proof.Gen.Kernel
import proofs.«106963_g5643587026968_cont_9to1_m_404_5_alg».proof.Proof.Gen.Kernel.Frame
import proofs.«106963_g5643587026968_cont_9to1_m_404_5_alg».proof.Proof.Gen.KernelIdeal
import proofs.«106963_g5643587026968_cont_9to1_m_404_5_alg».proof.Proof.Gen.KernelIdeal.Frame
import proofs.«106963_g5643587026968_cont_9to1_m_404_5_alg».proof.Proof.Gen.KernelIdeal.Value
import proofs.«106963_g5643587026968_cont_9to1_m_404_5_alg».proof.Proof.Gen.ReferenceIdeal
import proofs.«106963_g5643587026968_cont_9to1_m_404_5_alg».proof.Proof.Gen.ReferenceIdeal.Run
import proofs.«106963_g5643587026968_cont_9to1_m_404_5_alg».proof.Proof.Gen.ReferenceIdeal.Read
import proofs.«106963_g5643587026968_cont_9to1_m_404_5_alg».proof.Proof.Gen.Pre_finite_inputs
import proofs.«106963_g5643587026968_cont_9to1_m_404_5_alg».proof.Proof.RefValue
import proofs.«106963_g5643587026968_cont_9to1_m_404_5_alg».proof.Proof.KernelBlocks

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its reading at the extended reals. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with their first result at the layer of the (agreeing) arguments and their second result the
    adjacency as launched. -/
theorem algebraic : Cert.algebraic_KernelIdeal_ReferenceIdeal := by
  intro m ρ m' ρ' _ hagree
  refine ⟨fun c => Cert.Gcn.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => m ((c.tc : Thread Cert.KernelIdeal.nD Cert.KernelIdeal.τ).loc Cert.KernelIdeal.main_arg1), ?_, ?_⟩
  · exact (θ_run Cert.KernelIdeal.defs _ _).mono (fun _ h c => ⟨(h c).1, (h c).2.2.1, (h c).2⟩)
      (Cert.Gcn.Kernel.run m ρ)
  · refine (θ_run Cert.ReferenceIdeal.defs _ _).mono (fun _ h c => ⟨?_, (h c).2.1.trans (hagree c).2.1, (h c).2.2⟩)
      (Cert.ReferenceIdeal.Value.run (F := Ideal) m' ρ')
    rw [(h c).1, Cert.ReferenceIdeal.Read.val_main_v6_eq, Cert.Gcn.Reference.result_eq,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
